-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S8192x8x24 : Shape := ⟨3, ![8192, 8, 24]⟩
abbrev S4288x1858 : Shape := ⟨2, ![4288, 1858]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel
  bcast_S_S8192x8x24 : S_.BroadcastsInDim S8192x8x24 (![] : Fin 0 → Fin S8192x8x24.rank)
  reducesTo_S8192x8x24_S_d0_1_2 : S8192x8x24.ReducesTo [0, 1, 2] S_
  bcast_S_S4288x1858 : S_.BroadcastsInDim S4288x1858 (![] : Fin 0 → Fin S4288x1858.rank)
  reducesTo_S4288x1858_S_d0_1 : S4288x1858.ReducesTo [0, 1] S_

variable [Facts]

def fn {F : FTy → Type} [FloatOps F] (main_arg0 : FVec F S8192x64x64 .f32) (main_arg1 : FVec F S8192x8x24 .f32) (main_arg2 : FVec F S4288x1858 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  let main_v4 : FVec F S8192x8x24 .f32 := Host.absf main_arg1
  let main_cst_0 : FVec F S_ .f32 := constant S_ .f32 0x7F800000#32
  let main_v5 : FVec F S8192x8x24 .f32 := broadcastInDim S8192x8x24 ![] bcast_S_S8192x8x24 main_cst_0
  let main_v6 : IVec S8192x8x24 1 := cmpf .olt main_v4 main_v5
  let main_c_1 : IVec S_ 1 := constantI S_ 1 1#1
  let main_v7 : IVec S_ 1 := (fun x v => Host.reduce IntOp.andi x v reducesTo_S8192x8x24_S_d0_1_2 h_S_) main_v6 main_c_1
  let main_v8 : IVec S_ 1 := andi main_v3 main_v7
  let main_v9 : FVec F S4288x1858 .f32 := Host.absf main_arg2
  let main_cst_2 : FVec F S_ .f32 := constant S_ .f32 0x7F800000#32
  let main_v10 : FVec F S4288x1858 .f32 := broadcastInDim S4288x1858 ![] bcast_S_S4288x1858 main_cst_2
  let main_v11 : IVec S4288x1858 1 := cmpf .olt main_v9 main_v10
  let main_c_3 : IVec S_ 1 := constantI S_ 1 1#1
  let main_v12 : IVec S_ 1 := (fun x v => Host.reduce IntOp.andi x v reducesTo_S4288x1858_S_d0_1 h_S_) main_v11 main_c_3
  let main_v13 : IVec S_ 1 := andi main_v8 main_v12
  main_v13
-- ==== Kernel.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S4096x1858 : Shape := ⟨2, ![4096, 1858]⟩
abbrev S192x1858 : Shape := ⟨2, ![192, 1858]⟩
abbrev S8192x1858 : Shape := ⟨2, ![8192, 1858]⟩
abbrev S256x4096 : Shape := ⟨2, ![256, 4096]⟩
abbrev S256x192 : Shape := ⟨2, ![256, 192]⟩
abbrev S256x1858 : Shape := ⟨2, ![256, 1858]⟩

abbrev nBuf : Space → Nat
  | .hbm => 10
  | .vmem => 8
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S4096x1858, .f32⟩
  | .hbm, ⟨6, _⟩ => ⟨S4096x1858, .bf16⟩
  | .hbm, ⟨7, _⟩ => ⟨S192x1858, .f32⟩
  | .hbm, ⟨8, _⟩ => ⟨S192x1858, .bf16⟩
  | .hbm, ⟨9, _⟩ => ⟨S8192x1858, .f32⟩
  | .local _ .vmem, ⟨0, _⟩ => ⟨S256x4096, .f32⟩
  | .local _ .vmem, ⟨1, _⟩ => ⟨S256x4096, .f32⟩
  | .local _ .vmem, ⟨2, _⟩ => ⟨S256x192, .f32⟩
  | .local _ .vmem, ⟨3, _⟩ => ⟨S256x192, .f32⟩
  | .local _ .vmem, ⟨4, _⟩ => ⟨S4096x1858, .bf16⟩
  | .local _ .vmem, ⟨5, _⟩ => ⟨S192x1858, .bf16⟩
  | .local _ .vmem, ⟨6, _⟩ => ⟨S256x1858, .f32⟩
  | .local _ .vmem, ⟨7, _⟩ => ⟨S256x1858, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1858 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x1858 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1858 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192x64x64_S8192x4096 : S8192x64x64.ShapeCasts S8192x4096
  shapeCasts_S8192x8x24_S8192x192 : S8192x8x24.ShapeCasts S8192x192
  slices_S4288x1858_S4096x1858_0_0 : S4288x1858.Slices ![0, 0] S4096x1858
  bitsLt_bf16_f32 : FTy.bits .bf16 < FTy.bits .f32
  slices_S4288x1858_S192x1858_4096_0 : S4288x1858.Slices ![4096, 0] S192x1858
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S4096x1858_S4096x1858_0_0 : ∀ a, (![0, 0] : Fin 2 → Nat) a + S4096x1858.size a ≤ S4096x1858.size a
  h_S4096x1858 : 0 < S4096x1858.numel
  shapeCasts_S4096x1858_S4096x1858 : S4096x1858.ShapeCasts S4096x1858
  inb_S192x1858_S192x1858_0_0 : ∀ a, (![0, 0] : Fin 2 → Nat) a + S192x1858.size a ≤ S192x1858.size a
  h_S192x1858 : 0 < S192x1858.numel
  shapeCasts_S192x1858_S192x1858 : S192x1858.ShapeCasts S192x1858
  inb_S256x1858_S256x1858_0_0 : ∀ a, (![0, 0] : Fin 2 → Nat) a + S256x1858.size a ≤ S256x1858.size a
  h_S256x1858 : 0 < S256x1858.numel
  dot_S256x4096_S4096x1858_S256x1858_1_0_0_1_n_n_wf : DotDims.WF S256x4096 S4096x1858 S256x1858 [1] [0] [0] [1] [] []
  dot_S256x192_S192x1858_S256x1858_1_0_0_1_n_n_wf : DotDims.WF S256x192 S192x1858 S256x1858 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S8192x192.size a
  hwx0_1 : ∀ i : grid0.Coords, EltTy.bits .f32 = 32 ∨ (Rect.block (s := S8192x192) S256x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1858.size a ≤ S4096x1858.size a
  hwx0_2 : ∀ i : grid0.Coords, EltTy.bits .bf16 = 32 ∨ (Rect.block (s := S4096x1858) S4096x1858.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1858.size a ≤ S192x1858.size a
  hwx0_3 : ∀ i : grid0.Coords, EltTy.bits .bf16 = 32 ∨ (Rect.block (s := S192x1858) S192x1858.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1858.size a ≤ S8192x1858.size a
  hwx0_4 : ∀ i : grid0.Coords, EltTy.bits .f32 = 32 ∨ (Rect.block (s := S8192x1858) S256x1858.size (cc0_transform_4 i) (hinb0_4 i)).WholeWords (EltTy.packing .f32)

variable [Facts₀]

def dot_S256x4096_S4096x1858_S256x1858_1_0_0_1_n_n : DotDims S256x4096 S4096x1858 S256x1858 where
  lhsContracting := [1]
  rhsContracting := [0]
  lhsNonContracting := [0]
  rhsNonContracting := [1]
  lhsBatch := []
  rhsBatch := []
  wf := dot_S256x4096_S4096x1858_S256x1858_1_0_0_1_n_n_wf
def dot_S256x192_S192x1858_S256x1858_1_0_0_1_n_n : DotDims S256x192 S192x1858 S256x1858 where
  lhsContracting := [1]
  rhsContracting := [0]
  lhsNonContracting := [0]
  rhsNonContracting := [1]
  lhsBatch := []
  rhsBatch := []
  wf := dot_S256x192_S192x1858_S256x1858_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x1858.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S192x1858.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1858.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S8192x8x24 : Shape := ⟨3, ![8192, 8, 24]⟩
abbrev S4288x1858 : Shape := ⟨2, ![4288, 1858]⟩
abbrev S8192x4096 : Shape := ⟨2, ![8192, 4096]⟩
abbrev S8192x192 : Shape := ⟨2, ![8192, 192]⟩
abbrev S8192x4288 : Shape := ⟨2, ![8192, 4288]⟩
abbrev S8192x1858 : Shape := ⟨2, ![8192, 1858]⟩

abbrev nBuf : Space → Nat
  | .hbm => 7
  | .vmem => 0
  | .smem => 0
  | _ => 0

abbrev bufTy : (tb : Table) → Fin (tcTables nBuf tb) → BufTy
  | .hbm, ⟨0, _⟩ => ⟨S8192x64x64, .f32⟩
  | .hbm, ⟨1, _⟩ => ⟨S8192x8x24, .f32⟩
  | .hbm, ⟨2, _⟩ => ⟨S4288x1858, .f32⟩
  | .hbm, ⟨3, _⟩ => ⟨S8192x4096, .f32⟩
  | .hbm, ⟨4, _⟩ => ⟨S8192x192, .f32⟩
  | .hbm, ⟨5, _⟩ => ⟨S8192x4288, .f32⟩
  | .hbm, ⟨6, _⟩ => ⟨S8192x1858, .f32⟩
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S8192x64x64_S8192x4096 : S8192x64x64.ShapeCasts S8192x4096
  shapeCasts_S8192x8x24_S8192x192 : S8192x8x24.ShapeCasts S8192x192
  concatenates_S8192x4096_S8192x192_S8192x4288_d1 : Shape.Concatenates [S8192x4096, S8192x192] S8192x4288 1
  dot_S8192x4288_S4288x1858_S8192x1858_1_0_0_1_n_n_wf : DotDims.WF S8192x4288 S4288x1858 S8192x1858 [1] [0] [0] [1] [] []

variable [Facts₀]

def dot_S8192x4288_S4288x1858_S8192x1858_1_0_0_1_n_n : DotDims S8192x4288 S4288x1858 S8192x1858 where
  lhsContracting := [1]
  rhsContracting := [0]
  lhsNonContracting := [0]
  rhsNonContracting := [1]
  lhsBatch := []
  rhsBatch := []
  wf := dot_S8192x4288_S4288x1858_S8192x1858_1_0_0_1_n_n_wf

class Facts : Prop extends Facts₀ where

variable [Facts]
-- ==== Proof.PolicySpec.lean ====
/-
  What both programs compute, as one function of the three argument arrays.

  Flatten each board's 64 x 64 plane row by row into 4096 entries, and its 8 x 24 plane into 192 entries.
  The result at (b, n) is the inner product of the 4288 entries of board b -- the 4096 of the first
  plane followed by the 192 of the second -- with column n of the 4288-row weight matrix.  Written as the
  kernel arranges it, that inner product is a sum over the first 4096 rows of the weights plus a sum
  over the last 192; written as the reference arranges it, it is one sum over all 4288 rows.  The two
  are the same number by splitting a finite sum at row 4096, which uses only that addition is
  commutative and associative: it holds on the extended reals with no finiteness assumption.
-/
import Idealize.ShloMosaic.PureOps.Ideal
import Idealize.ShloMosaic.Lib.ValueIdx

noncomputable section

namespace Cert.PolicyMap

open Idealize.ShloMosaic Idealize.ShloMosaic.ValueIdx

/-- A sum over `n = a + b` terms is the sum of the first `a` plus the sum of the last `b`. -/
theorem sum_split {M : Type*} [AddCommMonoid M] (a b n : Nat) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- Entry `k` of board `b`'s 64 x 64 plane flattened row by row: row `k / 64`, column `k % 64`. -/
abbrev flatSq (x : (⟨3, ![8192, 64, 64]⟩ : Shape).Idx → EReal) (b : Fin 8192) (k : Fin 4096) : EReal :=
  x (ix3 b ⟨k.val / 64, by omega⟩ ⟨k.val % 64, by omega⟩)

/-- Entry `k` of board `b`'s 8 x 24 plane flattened row by row: row `k / 24`, column `k % 24`. -/
abbrev flatPp (p : (⟨3, ![8192, 8, 24]⟩ : Shape).Idx → EReal) (b : Fin 8192) (k : Fin 192) : EReal :=
  p (ix3 b ⟨k.val / 24, by omega⟩ ⟨k.val % 24, by omega⟩)

/-- The policy map: at (b, n), the flattened first plane against weight rows 0 .. 4095 plus the flattened
    second plane against weight rows 4096 .. 4287, both in column n. -/
def policy (x : (⟨3, ![8192, 64, 64]⟩ : Shape).Idx → EReal) (p : (⟨3, ![8192, 8, 24]⟩ : Shape).Idx → EReal)
    (w : (⟨2, ![4288, 1858]⟩ : Shape).Idx → EReal) : (⟨2, ![8192, 1858]⟩ : Shape).Idx → EReal := fun j =>
  (∑ k : Fin 4096, flatSq x (j 0) k * w (ix2 (⟨k.val, by omega⟩ : Fin 4288) (j 1)))
    + ∑ k : Fin 192, flatPp p (j 0) k * w (ix2 (⟨4096 + k.val, by omega⟩ : Fin 4288) (j 1))

/-- The same inner product over arrays ALREADY flattened (`a`: 4096 entries a board, `q`: 192 entries a board) and
    weights ALREADY cut at row 4096 (`u` the first 4096 rows, `v` the last 192): the arrangement the kernel's two
    matrix products compute. -/
def twoSums (a : (⟨2, ![8192, 4096]⟩ : Shape).Idx → EReal) (q : (⟨2, ![8192, 192]⟩ : Shape).Idx → EReal)
    (u : (⟨2, ![4096, 1858]⟩ : Shape).Idx → EReal) (v : (⟨2, ![192, 1858]⟩ : Shape).Idx → EReal) :
    (⟨2, ![8192, 1858]⟩ : Shape).Idx → EReal := fun j =>
  (∑ k : Fin 4096, a (ix2 (j 0) k) * u (ix2 k (j 1))) + ∑ k : Fin 192, q (ix2 (j 0) k) * v (ix2 k (j 1))

end Cert.PolicyMap

end
-- ==== Proof.PolicyRef.lean ====
/-
  The reference computes the policy map.

  The reference joins each board's two flattened planes into one row of 4288 entries and takes ONE inner
  product with each weight column.  Read at a column below 4096 the joined row is the first plane's entry;
  at column 4096 + k it is the second plane's entry k.  Splitting the sum over the 4288 columns at 4096
  therefore gives exactly the two sums of the policy map.
-/
import proofs.«142516_j91104846283204_1_alg».proof.Proof.Gen.ReferenceIdeal.Read
import proofs.«142516_j91104846283204_1_alg».proof.Proof.PolicySpec

noncomputable section

namespace Cert.PolicyMap.Ref

open Cert.ReferenceIdeal Cert.ReferenceIdeal.Gen Cert.ReferenceIdeal.Read
open Idealize.ShloMosaic Idealize.ShloMosaic.ValueIdx Cert.PolicyMap

/-- The left operand's index of the reference's product, as a pair (board, column). -/
theorem lidx_eq (i : S8192x1858.Idx) (k : Fin 4288) : lidx_main_v3 i k = ix2 (i 0) k :=
  funext fun a => by match a with | ⟨0, _⟩ => rfl | ⟨1, _⟩ => rfl

/-- The right operand's index, as a pair (weight row, output column). -/
theorem ridx_eq (i : S8192x1858.Idx) (k : Fin 4288) : ridx_main_v3 i k = ix2 k (i 1) :=
  funext fun a => by match a with | ⟨0, _⟩ => rfl | ⟨1, _⟩ => rfl

/-- The joined row at a column below 4096 is the first plane's entry: row `k / 64`, column `k % 64`. -/
theorem joined_lo (x0 : (⟨S8192x64x64, .f32⟩ : BufTy).Contents (Elt Ideal)) (x1 : (⟨S8192x8x24, .f32⟩ : BufTy).Contents (Elt Ideal))
    (b : Fin 8192) (k : Fin 4096) :
    val_main_v2 (F := Ideal) x0 x1 (ix2 b (⟨k.val, by omega⟩ : Fin 4288)) = flatSq x0 b k := by
  unfold val_main_v2
  rw [concatenate_pair_apply_left (1 : Fin S8192x4288.rank) (val_main_v0 (F := Ideal) x0) (val_main_v1 (F := Ideal) x1)
    concatenates_S8192x4096_S8192x192_S8192x4288_d1 (ix2 b (⟨k.val, by omega⟩ : Fin 4288)) rfl (ix2 b k)
    (fun a => by match a with | ⟨0, _⟩ => rfl | ⟨1, _⟩ => rfl)]
  rw [val_main_v0_apply]
  refine congrArg x0 (funext fun a => Fin.ext ?_)
  have hb := b.isLt
  have hk := k.isLt
  match a with
  | ⟨0, _⟩ => show (b.val * 4096 + k.val) / 4096 = b.val; omega
  | ⟨1, _⟩ => show (b.val * 4096 + k.val) / 64 % 64 = k.val / 64; omega
  | ⟨2, _⟩ => show (b.val * 4096 + k.val) % 64 = k.val % 64; omega

/-- The joined row at column `4096 + k` is the second plane's entry `k`: row `k / 24`, column `k % 24`. -/
theorem joined_hi (x0 : (⟨S8192x64x64, .f32⟩ : BufTy).Contents (Elt Ideal)) (x1 : (⟨S8192x8x24, .f32⟩ : BufTy).Contents (Elt Ideal))
    (b : Fin 8192) (k : Fin 192) :
    val_main_v2 (F := Ideal) x0 x1 (ix2 b (⟨4096 + k.val, by omega⟩ : Fin 4288)) = flatPp x1 b k := by
  unfold val_main_v2
  rw [concatenate_pair_apply_right (1 : Fin S8192x4288.rank) (val_main_v0 (F := Ideal) x0) (val_main_v1 (F := Ideal) x1)
    concatenates_S8192x4096_S8192x192_S8192x4288_d1 (ix2 b (⟨4096 + k.val, by omega⟩ : Fin 4288)) rfl rfl (ix2 b k)
    (fun a => by match a with | ⟨0, _⟩ => (intro _; rfl) | ⟨1, _⟩ => (intro h; exact absurd rfl h))
    (by show k.val + 4096 = 4096 + k.val; omega)]
  rw [val_main_v1_apply]
  refine congrArg x1 (funext fun a => Fin.ext ?_)
  have hb := b.isLt
  have hk := k.isLt
  match a with
  | ⟨0, _⟩ => show (b.val * 192 + k.val) / 192 = b.val; omega
  | ⟨1, _⟩ => show (b.val * 192 + k.val) / 24 % 8 = k.val / 24; omega
  | ⟨2, _⟩ => show (b.val * 192 + k.val) % 24 = k.val % 24; omega

/-- THE REFERENCE IS THE POLICY MAP: its one sum over 4288 columns, split at 4096, is the map's two sums. -/
theorem reference_eq (x0 : (⟨S8192x64x64, .f32⟩ : BufTy).Contents (Elt Ideal)) (x1 : (⟨S8192x8x24, .f32⟩ : BufTy).Contents (Elt Ideal))
    (x2 : (⟨S4288x1858, .f32⟩ : BufTy).Contents (Elt Ideal)) :
    val_main_v3 (F := Ideal) x0 x1 x2 = policy x0 x1 x2 := by
  funext i
  rw [val_main_v3_apply, sum_split 4096 192 4288 (by norm_num)]
  unfold policy
  refine congrArg₂ (· + ·) (Finset.sum_congr rfl fun k _ => ?_) (Finset.sum_congr rfl fun k _ => ?_)
  · rw [lidx_eq, ridx_eq]
    exact congrArg (· * _) (joined_lo x0 x1 (i 0) k)
  · rw [lidx_eq, ridx_eq]
    exact congrArg (· * _) (joined_hi x0 x1 (i 0) k)

end Cert.PolicyMap.Ref

end
-- ==== Proof.PolicyBlock.lean ====
/-
  What the kernel body stores, entry by entry.

  At one grid point the body holds 256 boards: their flattened first planes (256 x 4096), their flattened
  second planes (256 x 192), and the two cuts of the weight matrix (4096 x 1858 and 192 x 1858).  It
  narrows the planes to the weights' format -- at the ideal values a change of format is the identity --,
  multiplies each pair into a zero accumulator and adds the two products.  So entry (r, n) of the stored
  block is the sum over k < 4096 of plane-one entry (r, k) times weight (k, n), plus the sum over
  k < 192 of plane-two entry (r, k) times weight (k, n).
-/
import proofs.«142516_j91104846283204_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.PolicyMap.Block

open Cert.KernelIdeal Cert.KernelIdeal.Gen
open Idealize.ShloMosaic Idealize.ShloMosaic.ValueIdx

/-! ## The first product (256 x 4096 times 4096 x 1858): its operand indices, axis by axis

The left operand is read at (output row, shared position), the right at (shared position, output column). -/

theorem lhsA_0 (i : S256x1858.Idx) (q : dot_S256x4096_S4096x1858_S256x1858_1_0_0_1_n_n.contr.Idx) :
    (dot_S256x4096_S4096x1858_S256x1858_1_0_0_1_n_n.lhsIdx i q 0).val = (i 0).val := by
  unfold DotDims.lhsIdx
  rw [dif_neg (show ¬(0 : Fin S256x4096.rank) ∈ dot_S256x4096_S4096x1858_S256x1858_1_0_0_1_n_n.lhsBatch by decide),
    dif_pos (show (0 : Fin S256x4096.rank) ∈ dot_S256x4096_S4096x1858_S256x1858_1_0_0_1_n_n.lhsNonContracting by decide)]
  rfl

theorem lhsA_1 (i : S256x1858.Idx) (q : dot_S256x4096_S4096x1858_S256x1858_1_0_0_1_n_n.contr.Idx) :
    (dot_S256x4096_S4096x1858_S256x1858_1_0_0_1_n_n.lhsIdx i q 1).val = (q ⟨0, by decide⟩).val :=
  dot_S256x4096_S4096x1858_S256x1858_1_0_0_1_n_n.lhsIdx_val_of_single rfl i q

theorem rhsA_0 (i : S256x1858.Idx) (q : dot_S256x4096_S4096x1858_S256x1858_1_0_0_1_n_n.contr.Idx) :
    (dot_S256x4096_S4096x1858_S256x1858_1_0_0_1_n_n.rhsIdx i q 0).val = (q ⟨0, by decide⟩).val :=
  dot_S256x4096_S4096x1858_S256x1858_1_0_0_1_n_n.rhsIdx_val_of_single rfl i q

theorem rhsA_1 (i : S256x1858.Idx) (q : dot_S256x4096_S4096x1858_S256x1858_1_0_0_1_n_n.contr.Idx) :
    (dot_S256x4096_S4096x1858_S256x1858_1_0_0_1_n_n.rhsIdx i q 1).val = (i 1).val := by
  unfold DotDims.rhsIdx
  rw [dif_neg (show ¬(1 : Fin S4096x1858.rank) ∈ dot_S256x4096_S4096x1858_S256x1858_1_0_0_1_n_n.rhsBatch by decide),
    dif_pos (show (1 : Fin S4096x1858.rank) ∈ dot_S256x4096_S4096x1858_S256x1858_1_0_0_1_n_n.rhsNonContracting by decide)]
  rfl

/-- The first product into a zero accumulator, at (r, n): the sum over the 4096 shared positions of
    left (r, k) times right (k, n). -/
theorem matmulA_apply (a : FVec Ideal S256x4096 .bf16) (b : FVec Ideal S4096x1858 .bf16) (i : S256x1858.Idx) :
    matmul dot_S256x4096_S4096x1858_S256x1858_1_0_0_1_n_n none a b (constant (F := Ideal) S256x1858 .f32 0x00000000#32) i
      = ∑ k : Fin 4096, a (ix2 (i 0) k) * b (ix2 k (i 1)) := by
  simp only [matmul]
  rw [Ideal.matmul_constant_zero_apply,
    ← Equiv.sum_comp (ValueIdx.contrEquiv1 dot_S256x4096_S4096x1858_S256x1858_1_0_0_1_n_n 4096 rfl rfl).symm]
  refine Finset.sum_congr rfl fun k _ => ?_
  have hk := ValueIdx.contrEquiv1_symm_val dot_S256x4096_S4096x1858_S256x1858_1_0_0_1_n_n 4096 rfl rfl k
  have el : dot_S256x4096_S4096x1858_S256x1858_1_0_0_1_n_n.lhsIdx i
      ((ValueIdx.contrEquiv1 dot_S256x4096_S4096x1858_S256x1858_1_0_0_1_n_n 4096 rfl rfl).symm k) = ix2 (i 0) k :=
    funext fun ax => Fin.ext (by
      match ax with
      | ⟨0, _⟩ => exact lhsA_0 _ _
      | ⟨1, _⟩ => exact (lhsA_1 _ _).trans hk)
  have er : dot_S256x4096_S4096x1858_S256x1858_1_0_0_1_n_n.rhsIdx i
      ((ValueIdx.contrEquiv1 dot_S256x4096_S4096x1858_S256x1858_1_0_0_1_n_n 4096 rfl rfl).symm k) = ix2 k (i 1) :=
    funext fun ax => Fin.ext (by
      match ax with
      | ⟨0, _⟩ => exact (rhsA_0 _ _).trans hk
      | ⟨1, _⟩ => exact rhsA_1 _ _)
  exact congrArg₂ (· * ·) (congrArg a el) (congrArg b er)

/-! ## The second product (256 x 192 times 192 x 1858): the same reading, over 192 shared positions -/

theorem lhsB_0 (i : S256x1858.Idx) (q : dot_S256x192_S192x1858_S256x1858_1_0_0_1_n_n.contr.Idx) :
    (dot_S256x192_S192x1858_S256x1858_1_0_0_1_n_n.lhsIdx i q 0).val = (i 0).val := by
  unfold DotDims.lhsIdx
  rw [dif_neg (show ¬(0 : Fin S256x192.rank) ∈ dot_S256x192_S192x1858_S256x1858_1_0_0_1_n_n.lhsBatch by decide),
    dif_pos (show (0 : Fin S256x192.rank) ∈ dot_S256x192_S192x1858_S256x1858_1_0_0_1_n_n.lhsNonContracting by decide)]
  rfl

theorem lhsB_1 (i : S256x1858.Idx) (q : dot_S256x192_S192x1858_S256x1858_1_0_0_1_n_n.contr.Idx) :
    (dot_S256x192_S192x1858_S256x1858_1_0_0_1_n_n.lhsIdx i q 1).val = (q ⟨0, by decide⟩).val :=
  dot_S256x192_S192x1858_S256x1858_1_0_0_1_n_n.lhsIdx_val_of_single rfl i q

theorem rhsB_0 (i : S256x1858.Idx) (q : dot_S256x192_S192x1858_S256x1858_1_0_0_1_n_n.contr.Idx) :
    (dot_S256x192_S192x1858_S256x1858_1_0_0_1_n_n.rhsIdx i q 0).val = (q ⟨0, by decide⟩).val :=
  dot_S256x192_S192x1858_S256x1858_1_0_0_1_n_n.rhsIdx_val_of_single rfl i q

theorem rhsB_1 (i : S256x1858.Idx) (q : dot_S256x192_S192x1858_S256x1858_1_0_0_1_n_n.contr.Idx) :
    (dot_S256x192_S192x1858_S256x1858_1_0_0_1_n_n.rhsIdx i q 1).val = (i 1).val := by
  unfold DotDims.rhsIdx
  rw [dif_neg (show ¬(1 : Fin S192x1858.rank) ∈ dot_S256x192_S192x1858_S256x1858_1_0_0_1_n_n.rhsBatch by decide),
    dif_pos (show (1 : Fin S192x1858.rank) ∈ dot_S256x192_S192x1858_S256x1858_1_0_0_1_n_n.rhsNonContracting by decide)]
  rfl

/-- The second product into a zero accumulator, at (r, n): the sum over the 192 shared positions of
    left (r, k) times right (k, n). -/
theorem matmulB_apply (a : FVec Ideal S256x192 .bf16) (b : FVec Ideal S192x1858 .bf16) (i : S256x1858.Idx) :
    matmul dot_S256x192_S192x1858_S256x1858_1_0_0_1_n_n none a b (constant (F := Ideal) S256x1858 .f32 0x00000000#32) i
      = ∑ k : Fin 192, a (ix2 (i 0) k) * b (ix2 k (i 1)) := by
  simp only [matmul]
  rw [Ideal.matmul_constant_zero_apply,
    ← Equiv.sum_comp (ValueIdx.contrEquiv1 dot_S256x192_S192x1858_S256x1858_1_0_0_1_n_n 192 rfl rfl).symm]
  refine Finset.sum_congr rfl fun k _ => ?_
  have hk := ValueIdx.contrEquiv1_symm_val dot_S256x192_S192x1858_S256x1858_1_0_0_1_n_n 192 rfl rfl k
  have el : dot_S256x192_S192x1858_S256x1858_1_0_0_1_n_n.lhsIdx i
      ((ValueIdx.contrEquiv1 dot_S256x192_S192x1858_S256x1858_1_0_0_1_n_n 192 rfl rfl).symm k) = ix2 (i 0) k :=
    funext fun ax => Fin.ext (by
      match ax with
      | ⟨0, _⟩ => exact lhsB_0 _ _
      | ⟨1, _⟩ => exact (lhsB_1 _ _).trans hk)
  have er : dot_S256x192_S192x1858_S256x1858_1_0_0_1_n_n.rhsIdx i
      ((ValueIdx.contrEquiv1 dot_S256x192_S192x1858_S256x1858_1_0_0_1_n_n 192 rfl rfl).symm k) = ix2 k (i 1) :=
    funext fun ax => Fin.ext (by
      match ax with
      | ⟨0, _⟩ => exact (rhsB_0 _ _).trans hk
      | ⟨1, _⟩ => exact rhsB_1 _ _)
  exact congrArg₂ (· * ·) (congrArg a el) (congrArg b er)

/-! ## The stored block -/

/-- THE BODY'S STORE AT (r, n): the two sums, over the loaded blocks themselves (the shape casts are to the same
    shape and the narrowing of format is the identity at the ideal values). -/
theorem stored_apply (v0 : Vec Ideal S256x4096 .f32) (v3 : Vec Ideal S256x192 .f32) (v6 : Vec Ideal S4096x1858 .bf16)
    (v8 : Vec Ideal S192x1858 .bf16) (i : S256x1858.Idx) :
    k0_pay1 (F := Ideal) v0 v3 v6 v8 i
      = (∑ k : Fin 4096, v0 (ix2 (i 0) k) * v6 (ix2 k (i 1))) + ∑ k : Fin 192, v3 (ix2 (i 0) k) * v8 (ix2 k (i 1)) := by
  unfold k0_pay1
  simp only [shapeCast_self]
  refine (addf_apply _ _ i).trans ?_
  refine congrArg₂ (· + ·) ((matmulA_apply _ _ i).trans ?_) ((matmulB_apply _ _ i).trans ?_)
  · rfl
  · rfl

end Cert.PolicyMap.Block

end
-- ==== Proof.PolicyArray.lean ====
/-
  From blocks to the whole array, and the kernel's run.

  The grid has 32 points.  Point t works on boards 256 t .. 256 t + 255: it is handed rows 256 t .. of the
  two flattened planes, the whole of both weight cuts, and it writes rows 256 t .. of the result, all 1858
  columns.  By the body's store (entry by entry the two sums over its loaded blocks), what point t writes
  back is rows 256 t .. of ONE function of the arrays the region is entered with: the two sums over the
  flattened planes and the weight cuts.  The 32 row bands cover the result array (row r lies in band r / 256),
  so the array ends holding that function.

  The arrays the region is entered with are made before it from the three arguments: each plane reshaped to a
  row per board, the weights cut into rows 0 .. 4095 and rows 4096 .. 4287 and narrowed in format (the identity
  at the ideal values).  Reading a reshape at (b, k) as the plane's entry (k / width, k % width), and a cut at
  (k, n) as the weights' row offset + k, turns the two sums into the policy map of the arguments.
-/
import proofs.«142516_j91104846283204_1_alg».proof.Proof.Gen.KernelIdeal.Value
import proofs.«142516_j91104846283204_1_alg».proof.Proof.PolicySpec
import proofs.«142516_j91104846283204_1_alg».proof.Proof.PolicyBlock
import Idealize.ShloMosaic.Lib.StableHlo.Run

noncomputable section

namespace Cert.PolicyMap.Kernel

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.PolicyMap

variable (m : (ℓ : Loc nD τ sig) → Buf (Elt Ideal) ℓ) (ρ : Dev nD → PrngReg)

/-! ## The prepared arrays' two sums are the policy map of the arguments -/

/-- Reshape each plane to a row per board, cut the weights at row 4096 (a change of format being the identity):
    the two sums over those are the policy map. -/
theorem twoSums_prepared (x : S8192x64x64.Idx → EReal) (p : S8192x8x24.Idx → EReal) (w : S4288x1858.Idx → EReal)
    (hx : S8192x64x64.ShapeCasts S8192x4096) (hp : S8192x8x24.ShapeCasts S8192x192)
    (hu : S4288x1858.Slices ![0, 0] S4096x1858) (hv : S4288x1858.Slices ![4096, 0] S192x1858)
    (hb : FTy.bf16.bits < FTy.f32.bits) :
    twoSums (shapeCast S8192x4096 x hx) (shapeCast S8192x192 p hp)
        (truncf (F := Ideal) .bf16 (extractStridedSlice S4096x1858 ![0, 0] w hu : FVec Ideal S4096x1858 .f32) hb)
        (truncf (F := Ideal) .bf16 (extractStridedSlice S192x1858 ![4096, 0] w hv : FVec Ideal S192x1858 .f32) hb)
      = policy x p w := by
  funext j
  unfold twoSums policy
  have hj0 : (j 0).val < 8192 := (j 0).isLt
  refine congrArg₂ (· + ·) (Finset.sum_congr rfl fun k _ => ?_) (Finset.sum_congr rfl fun k _ => ?_)
  · have hk := k.isLt
    refine congrArg₂ (· * ·) ?_ ?_
    · exact shapeCast_apply x hx (ix2 (j 0) k) (ix3 (j 0) ⟨k.val / 64, by omega⟩ ⟨k.val % 64, by omega⟩)
        (by rewrite [Shape.rowMajor_val_three, Shape.rowMajor_val_two]
            show ((j 0).val * 64 + k.val / 64) * 64 + k.val % 64 = (j 0).val * 4096 + k.val; omega)
    · show extractStridedSlice S4096x1858 ![0, 0] w hu (ix2 k (j 1)) = w (ix2 (⟨k.val, by omega⟩ : Fin 4288) (j 1))
      exact extractStridedSlice_apply ![0, 0] w hu (ix2 k (j 1)) (ix2 (⟨k.val, by omega⟩ : Fin 4288) (j 1))
        (fun a => by
          match a with
          | ⟨0, _⟩ => show k.val = 0 + k.val; omega
          | ⟨1, _⟩ => show (j 1).val = 0 + (j 1).val; omega)
  · have hk := k.isLt
    refine congrArg₂ (· * ·) ?_ ?_
    · exact shapeCast_apply p hp (ix2 (j 0) k) (ix3 (j 0) ⟨k.val / 24, by omega⟩ ⟨k.val % 24, by omega⟩)
        (by rewrite [Shape.rowMajor_val_three, Shape.rowMajor_val_two]
            show ((j 0).val * 8 + k.val / 24) * 24 + k.val % 24 = (j 0).val * 192 + k.val; omega)
    · show extractStridedSlice S192x1858 ![4096, 0] w hv (ix2 k (j 1)) = w (ix2 (⟨4096 + k.val, by omega⟩ : Fin 4288) (j 1))
      exact extractStridedSlice_apply ![4096, 0] w hv (ix2 k (j 1)) (ix2 (⟨4096 + k.val, by omega⟩ : Fin 4288) (j 1))
        (fun a => by
          match a with
          | ⟨0, _⟩ => show 4096 + k.val = 4096 + k.val; rfl
          | ⟨1, _⟩ => show (j 1).val = 0 + (j 1).val; omega)

/-! ## What the region is entered with -/

theorem entered_v0 (c : Dev nD) : (V m c main_v0 : S8192x4096.Idx → EReal)
    = shapeCast S8192x4096 (m ((c : Thread nD τ).loc main_arg0)) shapeCasts_S8192x64x64_S8192x4096 := by
  dsimp only [Gen.V, Gen.hostOps0]; after_results <;> rfl

theorem entered_v1 (c : Dev nD) : (V m c main_v1 : S8192x192.Idx → EReal)
    = shapeCast S8192x192 (m ((c : Thread nD τ).loc main_arg1)) shapeCasts_S8192x8x24_S8192x192 := by
  dsimp only [Gen.V, Gen.hostOps0]; after_results <;> rfl

theorem entered_v3 (c : Dev nD) : (V m c main_v3 : S4096x1858.Idx → EReal)
    = truncf (F := Ideal) .bf16 (extractStridedSlice S4096x1858 ![0, 0] (m ((c : Thread nD τ).loc main_arg2)) slices_S4288x1858_S4096x1858_0_0 : FVec Ideal S4096x1858 .f32) bitsLt_bf16_f32 := by
  dsimp only [Gen.V, Gen.hostOps0]; after_results <;> rfl

theorem entered_v5 (c : Dev nD) : (V m c main_v5 : S192x1858.Idx → EReal)
    = truncf (F := Ideal) .bf16 (extractStridedSlice S192x1858 ![4096, 0] (m ((c : Thread nD τ).loc main_arg2)) slices_S4288x1858_S192x1858_4096_0 : FVec Ideal S192x1858 .f32) bitsLt_bf16_f32 := by
  dsimp only [Gen.V, Gen.hostOps0]; after_results <;> rfl

/-- The four arrays the region is entered with, each named at its literal type (so that their entries are
    extended reals by type, and products of them are written as such). -/
abbrev planeX (c : Dev nD) : S8192x4096.Idx → EReal := V m c main_v0
abbrev planeP (c : Dev nD) : S8192x192.Idx → EReal := V m c main_v1
abbrev cutLo (c : Dev nD) : S4096x1858.Idx → EReal := V m c main_v3
abbrev cutHi (c : Dev nD) : S192x1858.Idx → EReal := V m c main_v5

/-! ## One point's write-back -/

theorem zeros2 : (![0, 0] : Fin 2 → Nat) = fun _ => 0 := funext fun a => by fin_cases a <;> rfl

/-- The printed index maps over the 32 points: the planes' windows and the result's move together down the rows
    (block row t at point t), never sideways; the weight cuts' windows stay at the origin. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- WHAT POINT t WRITES BACK is its row band of the two sums over the arrays the region is entered with. -/
theorem flushed_eq (c : Dev nD) (t : Fin cfg0.N) :
    (dats m 0 c).flushed 4 t = ((cfg0.win 4).blk t).view.read (Elt Ideal)
      (twoSums (V m c main_v0) (V m c main_v1) (V m c main_v3) (V m c main_v5)) := by
  rw [Cert.KernelIdeal.Value.flushed4]
  unfold out0_4
  rw [View.canon_unit_zero zeros2]
  simp only [View.ld_unit_zero (S := S256x4096) zeros2, View.ld_unit_zero (S := S256x192) zeros2,
    View.ld_unit_zero (S := S4096x1858) zeros2, View.ld_unit_zero (S := S192x1858) zeros2]
  obtain ⟨e00, e01, e10, e11, e20, e21, e30, e31, e41, e40⟩ := idx_facts t
  funext j
  show k0_pay1 (F := Ideal) (iblk m c 0 t) (iblk m c 1 t) (iblk m c 2 t) (iblk m c 3 t) j
    = twoSums (V m c main_v0) (V m c main_v1) (V m c main_v3) (V m c main_v5) (((cfg0.win 4).blk t).view.emb j)
  refine (Block.stored_apply (iblk m c 0 t) (iblk m c 1 t) (iblk m c 2 t) (iblk m c 3 t) j).trans ?_
  unfold twoSums
  have hj0 : (j 0).val < 256 := (j 0).isLt
  have hj1 : (j 1).val < 1858 := (j 1).isLt
  refine congrArg₂ (· + ·) (Finset.sum_congr rfl fun k _ => ?_) (Finset.sum_congr rfl fun k _ => ?_)
  · have h0 : ((cfg0.win 0).blk t).view.emb (ix2 (j 0) k) = ix2 ((((cfg0.win 4).blk t).view.emb j) 0) k := by
      funext a; apply Fin.ext
      match a with
      | ⟨0, _⟩ => show win0_0.index t (0 : Fin 2) * 256 + 1 * (j 0).val = win0_4.index t (0 : Fin 2) * 256 + 1 * (j 0).val; omega
      | ⟨1, _⟩ => show win0_0.index t (1 : Fin 2) * 4096 + 1 * k.val = k.val; omega
    have h2 : ((cfg0.win 2).blk t).view.emb (ix2 k (j 1)) = ix2 k ((((cfg0.win 4).blk t).view.emb j) 1) := by
      funext a; apply Fin.ext
      match a with
      | ⟨0, _⟩ => show win0_2.index t (0 : Fin 2) * 4096 + 1 * k.val = k.val; omega
      | ⟨1, _⟩ => show win0_2.index t (1 : Fin 2) * 1858 + 1 * (j 1).val = win0_4.index t (1 : Fin 2) * 1858 + 1 * (j 1).val; omega
    show planeX m c (((cfg0.win 0).blk t).view.emb (ix2 (j 0) k)) * cutLo m c (((cfg0.win 2).blk t).view.emb (ix2 k (j 1))) = _
    exact congrArg₂ (· * ·) (congrArg (planeX m c) h0) (congrArg (cutLo m c) h2)
  · have h1 : ((cfg0.win 1).blk t).view.emb (ix2 (j 0) k) = ix2 ((((cfg0.win 4).blk t).view.emb j) 0) k := by
      funext a; apply Fin.ext
      match a with
      | ⟨0, _⟩ => show win0_1.index t (0 : Fin 2) * 256 + 1 * (j 0).val = win0_4.index t (0 : Fin 2) * 256 + 1 * (j 0).val; omega
      | ⟨1, _⟩ => show win0_1.index t (1 : Fin 2) * 192 + 1 * k.val = k.val; omega
    have h3 : ((cfg0.win 3).blk t).view.emb (ix2 k (j 1)) = ix2 k ((((cfg0.win 4).blk t).view.emb j) 1) := by
      funext a; apply Fin.ext
      match a with
      | ⟨0, _⟩ => show win0_3.index t (0 : Fin 2) * 192 + 1 * k.val = k.val; omega
      | ⟨1, _⟩ => show win0_3.index t (1 : Fin 2) * 1858 + 1 * (j 1).val = win0_4.index t (1 : Fin 2) * 1858 + 1 * (j 1).val; omega
    show planeP m c (((cfg0.win 1).blk t).view.emb (ix2 (j 0) k)) * cutHi m c (((cfg0.win 3).blk t).view.emb (ix2 k (j 1))) = _
    exact congrArg₂ (· * ·) (congrArg (planeP m c) h1) (congrArg (cutHi m c) h3)

/-! ## The row bands cover the result -/

/-- An entry of the result lies in point t's band iff each coordinate lies in the band's range on its axis. -/
theorem mem_band (t : Fin cfg0.N) (i : S8192x1858.Idx) :
    i ∈ ((cfg0.win 4).blk t).view.set ↔ ∀ a : Fin 2, win0_4.index t a * S256x1858.size a ≤ (i a).val
      ∧ (i a).val < win0_4.index t a * S256x1858.size a + S256x1858.size a := by
  show i ∈ ((View.whole main_v6).slice (win0_4.rect t)).set ↔ _
  rw [View.set_slice_whole, Rect.mem_set_unit]
  exact Iff.rfl

/-- Row r of the result lies in the band of point r / 256, which writes back. -/
theorem covered (i : S8192x1858.Idx) :
    ∃ t : Fin cfg0.N, (cfg0.win 4).flush t = true ∧ i ∈ ((cfg0.win 4).blk t).view.set := by
  have hi0 : (i 0).val < 8192 := (i 0).isLt
  have hi1 : (i 1).val < 1858 := (i 1).isLt
  have hN : cfg0.N = 32 := N_0
  have hlt : (i 0).val / 256 < cfg0.N := by rw [hN]; omega
  obtain ⟨-, -, -, -, -, -, -, -, e41, e40⟩ := idx_facts ⟨(i 0).val / 256, hlt⟩
  have e40' : win0_4.index ⟨(i 0).val / 256, hlt⟩ (0 : Fin 2) = (i 0).val / 256 := e40
  refine ⟨⟨(i 0).val / 256, hlt⟩, flush0_4 _, ?_⟩
  rw [mem_band]
  intro a
  match a with
  | ⟨0, _⟩ =>
    show win0_4.index ⟨(i 0).val / 256, hlt⟩ (0 : Fin 2) * 256 ≤ (i 0).val
      ∧ (i 0).val < win0_4.index ⟨(i 0).val / 256, hlt⟩ (0 : Fin 2) * 256 + 256
    omega
  | ⟨1, _⟩ =>
    show win0_4.index ⟨(i 0).val / 256, hlt⟩ (1 : Fin 2) * 1858 ≤ (i 1).val
      ∧ (i 1).val < win0_4.index ⟨(i 0).val / 256, hlt⟩ (1 : Fin 2) * 1858 + 1858
    omega

/-! ## The result array, and the run -/

/-- THE RESULT after the run is the policy map of the three arguments. -/
theorem result_eq (c : Dev nD) : (dats m 0 c).arrAt 4 cfg0.N
    = policy (m ((c : Thread nD τ).loc main_arg0)) (m ((c : Thread nD τ).loc main_arg1)) (m ((c : Thread nD τ).loc main_arg2)) := by
  refine ((dats m 0 c).arrAt_eq_of_cover 4 _ (fun t _ => flushed_eq m c t) covered).trans ?_
  rw [entered_v0, entered_v1, entered_v3, entered_v5]
  exact twoSums_prepared _ _ _ _ _ _ _ _

/-- Every weakly fair execution of the idealized kernel terminates with the result at the policy map of the
    arguments and the arguments unchanged. -/
theorem run : θ_run defs (onTc (τ := τ) (main (F := Ideal))) ⟨m, fun _ => 0, ρ⟩ fun r => ∀ c : Dev nD,
      r.2.mem ((c : Thread nD τ).loc main_v6)
        = policy (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩)
    (Cert.KernelIdeal.Value.run_blocks m ρ)

end Cert.PolicyMap.Kernel

end
-- ==== Proof.lean ====
/-
  The policy map: out[b, n] = sum over the 4288 entries of board b (its 64 x 64 plane flattened, then its
  8 x 24 plane flattened) of entry k times weight (k, n).

  The kernel tiles the 8192 boards into 32 bands of 256 and, per band, forms the product of the first 4096
  entries with weight rows 0 .. 4095 and the product of the last 192 entries with weight rows 4096 .. 4287,
  and adds them.  The reference joins the two flattened planes into rows of 4288 and forms one product with
  the whole weight matrix.  On the extended reals every change of float format is the identity and a matrix
  product into a zero accumulator is a plain finite sum, so the two programs differ only in where the sum
  over k is cut: a finite sum split at k = 4096, which needs commutativity and associativity of addition and
  nothing else.  The finiteness precondition is therefore never opened.

  PolicySpec states the map and the split; PolicyRef reads the reference's run as the map; PolicyBlock reads
  the kernel body's store entry by entry; PolicyArray carries the bands to the whole result array and reads
  the arrays the kernel region is entered with.  The three frames are the generated ones (the reference's is
  its generated run with the result dropped); the kernel's idealization rewrote nothing, so `preserves` is
  trivial.
-/
import proofs.«142516_j91104846283204_1_alg».proof.Defs
import proofs.«142516_j91104846283204_1_alg».proof.Proof.Gen.Kernel
import proofs.«142516_j91104846283204_1_alg».proof.Proof.Gen.Kernel.Skeleton
import proofs.«142516_j91104846283204_1_alg».proof.Proof.Gen.Kernel.Launch
import proofs.«142516_j91104846283204_1_alg».proof.Proof.Gen.Kernel.Points
import proofs.«142516_j91104846283204_1_alg».proof.Proof.Gen.Kernel.Frame
import proofs.«142516_j91104846283204_1_alg».proof.Proof.Gen.KernelIdeal
import proofs.«142516_j91104846283204_1_alg».proof.Proof.Gen.KernelIdeal.Skeleton
import proofs.«142516_j91104846283204_1_alg».proof.Proof.Gen.KernelIdeal.Launch
import proofs.«142516_j91104846283204_1_alg».proof.Proof.Gen.KernelIdeal.Points
import proofs.«142516_j91104846283204_1_alg».proof.Proof.Gen.KernelIdeal.Frame
import proofs.«142516_j91104846283204_1_alg».proof.Proof.Gen.ReferenceIdeal
import proofs.«142516_j91104846283204_1_alg».proof.Proof.Gen.Pre_finite_inputs
import proofs.«142516_j91104846283204_1_alg».proof.Proof.Gen.KernelIdeal.Value
import proofs.«142516_j91104846283204_1_alg».proof.Proof.Gen.ReferenceIdeal.Run
import proofs.«142516_j91104846283204_1_alg».proof.Proof.Gen.ReferenceIdeal.Read
import proofs.«142516_j91104846283204_1_alg».proof.Proof.PolicySpec
import proofs.«142516_j91104846283204_1_alg».proof.Proof.PolicyRef
import proofs.«142516_j91104846283204_1_alg».proof.Proof.PolicyBlock
import proofs.«142516_j91104846283204_1_alg».proof.Proof.PolicyArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the three arguments, end with the result at the policy map of those
    arguments: the kernel by its row bands of two sums, the reference by its one sum split at row 4096. -/
theorem algebraic : Cert.algebraic_KernelIdeal_ReferenceIdeal := by
  intro m ρ m' ρ' _ hagree
  refine ⟨fun c => Cert.PolicyMap.policy
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.PolicyMap.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.PolicyMap.Ref.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
